-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 14
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .bf16⟩
  | .hbm, ⟨7, _⟩ => ⟨S128x128, .f32⟩
  | .hbm, ⟨8, _⟩ => ⟨S128x128, .f32⟩
  | .hbm, ⟨9, _⟩ => ⟨S256x128, .f32⟩
  | .hbm, ⟨10, _⟩ => ⟨S256x128, .bf16⟩
  | .hbm, ⟨11, _⟩ => ⟨S1x128, .f32⟩
  | .hbm, ⟨12, _⟩ => ⟨S1x128, .f32⟩
  | .hbm, ⟨13, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S128x128, .bf16⟩
  | .local _ .vmem, ⟨4, _⟩ => ⟨S128x128, .bf16⟩
  | .local _ .vmem, ⟨5, _⟩ => ⟨S1x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v5 : BitVec 32 := Scalar.muli arg0 c400_i32
  let v6 : Index := Scalar.indexCast v5
  let c0_3 : Index := 0#32
  ![v6.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  transposes_S128x128_S128x128_1_0 : S128x128.Transposes [1, 0] S128x128
  concatenates_S128x128_S128x128_S256x128_d0 : Shape.Concatenates [S128x128, S128x128] S256x128 0
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  h_S400x128 : 0 < S400x128.numel
  shapeCasts_S400x128_S400x128 : S400x128.ShapeCasts S400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S256x128.size a
  hwx0_2 : ∀ i : grid0.Coords, EltTy.bits .bf16 = 32 ∨ (Rect.block (s := S256x128) S128x128.size (cc0_transform_2 i) (hinb0_2 i)).WholeWords (EltTy.packing .bf16)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S256x128.size a
  hwx0_3 : ∀ i : grid0.Coords, EltTy.bits .bf16 = 32 ∨ (Rect.block (s := S256x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x128.size cc0_transform_3 reads0_3 false false 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S128x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S128x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .i1⟩
  | .hbm, ⟨22, _⟩ => ⟨S_, .f32⟩
  | .hbm, ⟨23, _⟩ => ⟨S10000x128, .f32⟩
  | .hbm, ⟨24, _⟩ => ⟨S10000x128, .f32⟩
  | .hbm, ⟨25, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KNgcfEntry.lean ====
/-
  The region's entry. @main runs seven host operations and then the one kernel region: `x` is converted to bf16,
  `W1` and `W2` are transposed and stacked into one [256,128] array which is converted to bf16, and the two biases are
  reshaped to [1,128]. `V` is what each buffer holds when the region begins (the host operations applied to the launch
  memory); none of them writes an argument, so the region finds the six arguments as launched.
  A window's block at a grid point is read off its array through the window's rectangle (`iblk`). The six input
  windows are only read by the body, so whatever point a window was last fetched at, its staging buffer holds its block.
-/
import proofs.«152794_g85229331022396_cont_9to1_m_1172_3_alg».proof.Proof.Gen.Kernel.Launch
import proofs.«152794_g85229331022396_cont_9to1_m_1172_3_alg».proof.Proof.Gen.Kernel.Skeleton
import proofs.«152794_g85229331022396_cont_9to1_m_1172_3_alg».proof.Proof.Gen.Kernel.Points
import Idealize.ShloMosaic.Lib.Pipeline.FrameBody
import Idealize.ShloMosaic.Lib.Tactic

set_option maxRecDepth 16384

noncomputable section

namespace Cert.Kernel.Ngcf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the seven host operations. -/
abbrev V (c : Dev nD) (b : Ref sig .tc) : Buf (Elt F) ((c : Thread nD τ).loc b) := StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is the host operations and then the region, which therefore starts from `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host operation writes an argument: each writes its own result buffer, and those are other buffers. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for any proof data
    whose array is `V`'s and whose body leaves the block in place: unfetched, the block index has not moved. The windows
    are uncut and never idle. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.Kernel.Ngcf

end
-- ==== Proof.KNgcfBody.lean ====
/-
  One run of the kernel body. The body loads the adjacency row-block (400 rows, all 10000 columns), the whole bf16 `x`
  (10000 × 128) and, once more out of the same buffer, the 400 rows of `x` that belong to this grid point (rows
  `400·i …`: the offset is the only thing that depends on the point), the two 128 × 128 weight blocks and the two bias
  rows; it loads the output buffer without using what it read, and stores ONE value over the whole output buffer.
  So after the body the six input buffers hold what they held, and the output buffer holds the stored value: the body's
  arithmetic (the payload `k0_pay1`) of the seven loaded values.
-/
import proofs.«152794_g85229331022396_cont_9to1_m_1172_3_alg».proof.Proof.Gen.Kernel.Launch
import proofs.«152794_g85229331022396_cont_9to1_m_1172_3_alg».proof.Proof.Gen.Kernel.Skeleton
import proofs.«152794_g85229331022396_cont_9to1_m_1172_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Ngcf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses -/

/-- The whole adjacency block, the whole `x`, a whole weight block, a whole bias row, the whole output block. -/
abbrev rAdj : Rect S400x10000 := Rect.unit (s := S400x10000) ![0, 0] S400x10000.size inb_S400x10000_S400x10000_0_0
abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rOut : Rect S400x128 := Rect.unit (s := S400x128) ![0, 0] S400x128.size inb_S400x128_S400x128_0_0
/-- The point's own 400 rows of `x`: rows `400·i` to `400·i + 399`, all 128 columns. -/
abbrev rXrows (i : grid0.Coords) : Rect S10000x128 := Rect.unit (s := S10000x128) (k0_off1 i) S400x128.size (k0_off1_inb i)

/-! ## What the body leaves in the output buffer -/

/-- The output buffer after the body at grid coordinates `i`, from what the six input buffers hold: its one store as
    the list of pieces it is the canonical value of. -/
def outBuf (i : grid0.Coords) (a : Vec F S400x10000 .f32) (xb : Vec F S10000x128 .bf16) (w1 w2 : Vec F S128x128 .bf16)
    (c1 c2 : Vec F S1x128 .f32) : Vec F S400x128 .f32 :=
  View.canon [⟨rOut, k0_pay1 (View.ld a rAdj) (View.ld xb rX) (View.ld xb (rXrows i)) (View.ld w1 rW) (View.ld w2 rW) (View.ld c1 rB) (View.ld c2 rB)⟩]

/-- The one store covers the buffer. -/
theorem cover_out (p0 : Vec F S400x128 .f32) (y : S400x128.Idx) :
    ∃ pc ∈ ([⟨rOut, p0⟩] : List (View.Piece (Elt F) S400x128 .f32)), y ∈ pc.1.set :=
  View.cover_of_tiled [⟨rOut, p0⟩] S400x128.size (by rfl) y

/-! ## The body's triple -/

set_option maxHeartbeats 1000000 in
/-- The body on whole staging memrefs, the inputs' at contents `a, xb, w1, w2, c1, c2` and the output's at anything, runs
    to the continuation with the inputs' as they were and the output's at `outBuf` of them. -/
theorem sound_kernel (c : Dev nD) (E : Set ℕ) (i : grid0.Coords)
    (arg1 : Memref sig .tc .vmem S400x10000 .f32) (harg1 : arg1.IsWhole) (arg2 : Memref sig .tc .vmem S10000x128 .bf16) (harg2 : arg2.IsWhole)
    (arg3 : Memref sig .tc .vmem S128x128 .bf16) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S400x128 .f32) (harg7 : arg7.IsWhole)
    (a : Vec F S400x10000 .f32) (xb : Vec F S10000x128 .bf16) (w1 w2 : Vec F S128x128 .bf16) (c1 c2 : Vec F S1x128 .f32)
    (K : PUnit → sProp 𝕄) :
    iprop(owns (c : Thread nD τ) arg1 fullShare a ∗ owns (c : Thread nD τ) arg2 fullShare xb ∗ owns (c : Thread nD τ) arg3 fullShare w1
        ∗ owns (c : Thread nD τ) arg4 fullShare w2 ∗ owns (c : Thread nD τ) arg5 fullShare c1 ∗ owns (c : Thread nD τ) arg6 fullShare c2
        ∗ (∃ d, owns (c : Thread nD τ) arg7 fullShare d)
        ∗ (iprop(owns (c : Thread nD τ) arg1 fullShare a ∗ owns (c : Thread nD τ) arg2 fullShare xb ∗ owns (c : Thread nD τ) arg3 fullShare w1
            ∗ owns (c : Thread nD τ) arg4 fullShare w2 ∗ owns (c : Thread nD τ) arg5 fullShare c1 ∗ owns (c : Thread nD τ) arg6 fullShare c2
            ∗ owns (c : Thread nD τ) arg7 fullShare (outBuf i a xb w1 w2 c1 c2)) -∗ K ⟨⟩))
      ⊢ wp frame (wpE (defs₀ (F := F)) Variants.none c none) E (cc0__ngcf_fused i arg1 harg1 arg2 harg2 arg3 harg3 arg4 harg4 arg5 harg5 arg6 harg6 arg7 harg7) K := by
  simp only [cc0__ngcf_fused_eq_skeleton]; unfold cc0__ngcf_fused_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

end Cert.Kernel.Ngcf

end
-- ==== Proof.KNgcfData.lean ====
/-
  The pipeline's proof data and the body obligation.

  Entry arrays: what the region finds (`V`). After the body at point `t` each of the six input buffers holds its block
  (the body only reads them) and the output buffer holds `outBuf` of the six input blocks. Windows 2 and 3 read the SAME
  array, the stacked [W1ᵀ; W2ᵀ], at block rows 0 and 1: window 2 holds that array at the left half of the full share and
  window 3 at the right half; every other input array is held whole. The kernel has no scratch buffer, so the invariant
  between points is the core's scoped buffers that are no staging buffer (there is none); nothing is owed.
-/
import proofs.«152794_g85229331022396_cont_9to1_m_1172_3_alg».proof.Proof.KNgcfEntry
import proofs.«152794_g85229331022396_cont_9to1_m_1172_3_alg».proof.Proof.KNgcfBody

set_option maxRecDepth 16384

noncomputable section

namespace Cert.Kernel.Ngcf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBuf (grid0.coords t) (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
  owed _ := 0

/-- The proof data's arrays are the region-entry contents. -/
theorem A_eq (c : Dev nD) (w : Fin cfg0.W) : (dats m 0 c).A w = V m c (Pipeline.arrRef spec0 w) := by
  dsimp only [dats]

/-- The invariant is the scoped rest at every point. -/
theorem Φ_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

/-! What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outBuf (grid0.coords t) (iblk m c 0 t) (iblk m c 1 t) (iblk m c 2 t) (iblk m c 3 t) (iblk m c 4 t) (iblk m c 5 t) := by dsimp only [dats]

/-! What the body finds in each input's buffer: its block, fetched at this point or not. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`: the invariant, that nothing is owed, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Ngcf

end
-- ==== Proof.KNgcfSplit.lean ====
/-
  How the buffers behind the windows' arrays are dealt to the windows when the region begins.

  The seven windows read six buffers: the adjacency, the bf16 `x`, the stacked bf16 weights (twice: windows 2 and 3), the
  two reshaped biases, and the result. Each buffer is held whole at the full share. The stacked weights' full share is
  halved, the left half to window 2 and the right half to window 3 (both only read it); every other window takes its
  buffer at the full share.
-/
import proofs.«152794_g85229331022396_cont_9to1_m_1172_3_alg».proof.Proof.KNgcfData

set_option maxRecDepth 16384

noncomputable section

namespace Cert.Kernel.Ngcf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s array holds at entry what the region finds in its buffer. -/
theorem arrAt_zero (c : Dev nD) (w : Fin cfg0.W) : (dats m 0 c).arrAt w 0 = V m c (Pipeline.arrRef spec0 w) := by
  rw [show (dats m 0 c).arrAt w 0 = (dats m 0 c).A w from rfl, A_eq]

/-- The buffers behind the windows' arrays, one by one: six buffers for seven windows. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg1) ↦{fullShare} W main_arg1) ∗ (((c.tc : Thread nD τ).loc main_v0) ↦{fullShare} W main_v0) ∗ (((c.tc : Thread nD τ).loc main_v4) ↦{fullShare} W main_v4) ∗ (((c.tc : Thread nD τ).loc main_v5) ↦{fullShare} W main_v5) ∗ (((c.tc : Thread nD τ).loc main_v6) ↦{fullShare} W main_v6) ∗ (((c.tc : Thread nD τ).loc main_v7) ↦{fullShare} W main_v7)) := by
  unfold Pipeline.arrBufs
  exact bigSep_eq_bigSepL_of_eq [main_arg1, main_v0, main_v4, main_v5, main_v6, main_v7] (by decide) (by decide) _

/-- The dealing, for any contents `W` of the buffers: the stacked weights' points-to is split along its share into a left
    and a right half, which windows 2 and 3 take; every other window takes its buffer's points-to as it is. -/
theorem deal (c : Dev nD) (W : (b : Ref sig .tc) → Buf (Elt F) ((c.tc : Thread nD τ).loc b)) :
    (iprop((((c.tc : Thread nD τ).loc main_arg1) ↦{fullShare} W main_arg1) ∗ (((c.tc : Thread nD τ).loc main_v0) ↦{fullShare} W main_v0) ∗ (((c.tc : Thread nD τ).loc main_v4) ↦{fullShare} W main_v4) ∗ (((c.tc : Thread nD τ).loc main_v5) ↦{fullShare} W main_v5) ∗ (((c.tc : Thread nD τ).loc main_v6) ↦{fullShare} W main_v6) ∗ (((c.tc : Thread nD τ).loc main_v7) ↦{fullShare} W main_v7)) : sProp 𝕄)
      ⊢ iprop((((c.tc : Thread nD τ).loc (Pipeline.arrRef spec0 0)) ↦{fullShare} W (Pipeline.arrRef spec0 0))
          ∗ (((c.tc : Thread nD τ).loc (Pipeline.arrRef spec0 1)) ↦{fullShare} W (Pipeline.arrRef spec0 1))
          ∗ (((c.tc : Thread nD τ).loc (Pipeline.arrRef spec0 2)) ↦{fullShare.left} W (Pipeline.arrRef spec0 2))
          ∗ (((c.tc : Thread nD τ).loc (Pipeline.arrRef spec0 3)) ↦{fullShare.right} W (Pipeline.arrRef spec0 3))
          ∗ (((c.tc : Thread nD τ).loc (Pipeline.arrRef spec0 4)) ↦{fullShare} W (Pipeline.arrRef spec0 4))
          ∗ (((c.tc : Thread nD τ).loc (Pipeline.arrRef spec0 5)) ↦{fullShare} W (Pipeline.arrRef spec0 5))
          ∗ (((c.tc : Thread nD τ).loc (Pipeline.arrRef spec0 6)) ↦{fullShare} W (Pipeline.arrRef spec0 6))) := by
  iintro ⟨Hadj, Hx, Hw, Hb1, Hb2, Hout⟩
  ihave Hw := (pointsTo_share (PosShare.mem_left_op_right fullShare)).1 $$ Hw
  icases Hw with ⟨Hwl, Hwr⟩
  isplitl [Hadj]; · iexact Hadj
  isplitl [Hx]; · iexact Hx
  isplitl [Hwl]; · iexact Hwl
  isplitl [Hwr]; · iexact Hwr
  isplitl [Hb1]; · iexact Hb1
  isplitl [Hb2]; · iexact Hb2
  iexact Hout

/-- The six buffers, each whole at the full share at the entry contents, make the seven windows' arrays at their shares. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  rw [show (dats m 0 c).share 0 = fullShare from rfl, show (dats m 0 c).share 1 = fullShare from rfl,
    show (dats m 0 c).share 2 = fullShare.left from rfl, show (dats m 0 c).share 3 = fullShare.right from rfl,
    show (dats m 0 c).share 4 = fullShare from rfl, show (dats m 0 c).share 5 = fullShare from rfl,
    show (dats m 0 c).share 6 = fullShare from rfl]
  simp only [arrAt_zero m c, View.set_whole]
  exact deal c (V m c)

end Cert.Kernel.Ngcf

end
-- ==== Proof.LibFrameShared.lean ====
/-
  A frame run for a pipeline whose input windows may read ONE array through several windows.

  The launch, region and adequacy are the library's `Pipeline.θ_run_region_noSem_shared`: the kernel has no
  semaphore of its own, and how each shared array's full share is dealt among the windows on it is a hypothesis
  (`hsplit`). What is added here is the part that is the same for every such kernel that keeps nothing in
  scratch between grid points: the region invariant is the core's scoped buffers that are no staging buffer
  (`scopedRest`), every unscoped buffer that is no window's array bypasses the region and is read back at its
  region-entry contents, and the conclusion is the library's `FramePost`: each window's array at the contents
  the proof data compute (`Dat.arrAt w N`), every other unscoped buffer at what it held when the region began.
-/
import Idealize.ShloMosaic.Lib.Pipeline.Frame

noncomputable section

namespace Idealize.ShloMosaic.Pipeline

open Idealize.SL
open Idealize.SL.BI (sProp bigSep)
open scoped Idealize.SL.BI
open Idealize.ShloMosaic.Rounds
open Idealize.SL.BI.BIBase Idealize.SL.BI.Laws Idealize.SL.Sem Idealize.SL.ProofMode
open Idealize.SL.RA
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run when windows may share arrays (`WinFacts₀`): from the body obligation, @main up to the region
    (`hmain`, the buffers' contents there `V`), the split of the arrays' buffers among the windows (`hsplit`) and an
    invariant that is the scoped rest at every point, every weakly fair execution terminates in `FramePost`. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := BI.Entails.refl _)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by iintro H; isplitr; · iempintro
                       iexact H)
    (hin := fun c => by rw [hΦ]; iintro ⟨-, H⟩; iexact H)
    (hout := fun c => by rw [hΦ]; iintro H; isplitr; · iempintro
                         iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline

end
-- ==== Proof.KNgcfRun.lean ====
/-
  The run and the frame. Every weakly fair execution of @main terminates; afterwards each window's array holds what the
  proof data compute (an input what the region found, the result the blocks the body wrote), and every other buffer what it
  held when the region began. Read at the six arguments — the adjacency is window 0's array, the other five bypass the
  region — that is: the arguments end unchanged.
-/
import proofs.«152794_g85229331022396_cont_9to1_m_1172_3_alg».proof.Proof.KNgcfSplit
import proofs.«152794_g85229331022396_cont_9to1_m_1172_3_alg».proof.Proof.LibFrameShared

set_option maxRecDepth 16384

noncomputable section

namespace Cert.Kernel.Ngcf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters: @main terminates with every array of the pipeline at the proof data's final
    contents and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hΦ := Φ_eq m)

/-- The frame: the program runs to the end and its six arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 rfl (by decide))).trans (V_main_arg0 m c),
     ((h c).1 0).trans (((dats m 0 c).arrAt_in 0 rfl _).trans ((A_eq m c 0).trans (V_main_arg1 m c))),
     ((h c).2 main_arg2 (Pipeline.mem_restRefs_of main_arg2 rfl (by decide))).trans (V_main_arg2 m c),
     ((h c).2 main_arg3 (Pipeline.mem_restRefs_of main_arg3 rfl (by decide))).trans (V_main_arg3 m c),
     ((h c).2 main_arg4 (Pipeline.mem_restRefs_of main_arg4 rfl (by decide))).trans (V_main_arg4 m c),
     ((h c).2 main_arg5 (Pipeline.mem_restRefs_of main_arg5 rfl (by decide))).trans (V_main_arg5 m c)⟩)
    (run_main m ρ)

end Cert.Kernel.Ngcf

end
-- ==== Proof.NgcfEntry.lean ====
/-
  The region's entry. @main runs seven host operations and then the one kernel region: `x` is converted to bf16,
  `W1` and `W2` are transposed and stacked into one [256,128] array which is converted to bf16, and the two biases are
  reshaped to [1,128]. `V` is what each buffer holds when the region begins (the host operations applied to the launch
  memory); none of them writes an argument, so the region finds the six arguments as launched.
  A window's block at a grid point is read off its array through the window's rectangle (`iblk`). The six input
  windows are only read by the body, so whatever point a window was last fetched at, its staging buffer holds its block.
-/
import proofs.«152794_g85229331022396_cont_9to1_m_1172_3_alg».proof.Proof.Gen.KernelIdeal.Launch
import proofs.«152794_g85229331022396_cont_9to1_m_1172_3_alg».proof.Proof.Gen.KernelIdeal.Skeleton
import proofs.«152794_g85229331022396_cont_9to1_m_1172_3_alg».proof.Proof.Gen.KernelIdeal.Points
import Idealize.ShloMosaic.Lib.Pipeline.FrameBody
import Idealize.ShloMosaic.Lib.Tactic

set_option maxRecDepth 16384

noncomputable section

namespace Cert.KernelIdeal.Ngcf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the seven host operations. -/
abbrev V (c : Dev nD) (b : Ref sig .tc) : Buf (Elt F) ((c : Thread nD τ).loc b) := StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is the host operations and then the region, which therefore starts from `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host operation writes an argument: each writes its own result buffer, and those are other buffers. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for any proof data
    whose array is `V`'s and whose body leaves the block in place: unfetched, the block index has not moved. The windows
    are uncut and never idle. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Ngcf

end
-- ==== Proof.NgcfBody.lean ====
/-
  One run of the kernel body. The body loads the adjacency row-block (400 rows, all 10000 columns), the whole bf16 `x`
  (10000 × 128) and, once more out of the same buffer, the 400 rows of `x` that belong to this grid point (rows
  `400·i …`: the offset is the only thing that depends on the point), the two 128 × 128 weight blocks and the two bias
  rows; it loads the output buffer without using what it read, and stores ONE value over the whole output buffer.
  So after the body the six input buffers hold what they held, and the output buffer holds the stored value: the body's
  arithmetic (the payload `k0_pay1`) of the seven loaded values.
-/
import proofs.«152794_g85229331022396_cont_9to1_m_1172_3_alg».proof.Proof.Gen.KernelIdeal.Launch
import proofs.«152794_g85229331022396_cont_9to1_m_1172_3_alg».proof.Proof.Gen.KernelIdeal.Skeleton
import proofs.«152794_g85229331022396_cont_9to1_m_1172_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Ngcf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses -/

/-- The whole adjacency block, the whole `x`, a whole weight block, a whole bias row, the whole output block. -/
abbrev rAdj : Rect S400x10000 := Rect.unit (s := S400x10000) ![0, 0] S400x10000.size inb_S400x10000_S400x10000_0_0
abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rOut : Rect S400x128 := Rect.unit (s := S400x128) ![0, 0] S400x128.size inb_S400x128_S400x128_0_0
/-- The point's own 400 rows of `x`: rows `400·i` to `400·i + 399`, all 128 columns. -/
abbrev rXrows (i : grid0.Coords) : Rect S10000x128 := Rect.unit (s := S10000x128) (k0_off1 i) S400x128.size (k0_off1_inb i)

/-! ## What the body leaves in the output buffer -/

/-- The output buffer after the body at grid coordinates `i`, from what the six input buffers hold: its one store as
    the list of pieces it is the canonical value of. -/
def outBuf (i : grid0.Coords) (a : Vec F S400x10000 .f32) (xb : Vec F S10000x128 .bf16) (w1 w2 : Vec F S128x128 .bf16)
    (c1 c2 : Vec F S1x128 .f32) : Vec F S400x128 .f32 :=
  View.canon [⟨rOut, k0_pay1 (View.ld a rAdj) (View.ld xb rX) (View.ld xb (rXrows i)) (View.ld w1 rW) (View.ld w2 rW) (View.ld c1 rB) (View.ld c2 rB)⟩]

/-- The one store covers the buffer. -/
theorem cover_out (p0 : Vec F S400x128 .f32) (y : S400x128.Idx) :
    ∃ pc ∈ ([⟨rOut, p0⟩] : List (View.Piece (Elt F) S400x128 .f32)), y ∈ pc.1.set :=
  View.cover_of_tiled [⟨rOut, p0⟩] S400x128.size (by rfl) y

/-! ## The body's triple -/

set_option maxHeartbeats 1000000 in
/-- The body on whole staging memrefs, the inputs' at contents `a, xb, w1, w2, c1, c2` and the output's at anything, runs
    to the continuation with the inputs' as they were and the output's at `outBuf` of them. -/
theorem sound_kernel (c : Dev nD) (E : Set ℕ) (i : grid0.Coords)
    (arg1 : Memref sig .tc .vmem S400x10000 .f32) (harg1 : arg1.IsWhole) (arg2 : Memref sig .tc .vmem S10000x128 .bf16) (harg2 : arg2.IsWhole)
    (arg3 : Memref sig .tc .vmem S128x128 .bf16) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S400x128 .f32) (harg7 : arg7.IsWhole)
    (a : Vec F S400x10000 .f32) (xb : Vec F S10000x128 .bf16) (w1 w2 : Vec F S128x128 .bf16) (c1 c2 : Vec F S1x128 .f32)
    (K : PUnit → sProp 𝕄) :
    iprop(owns (c : Thread nD τ) arg1 fullShare a ∗ owns (c : Thread nD τ) arg2 fullShare xb ∗ owns (c : Thread nD τ) arg3 fullShare w1
        ∗ owns (c : Thread nD τ) arg4 fullShare w2 ∗ owns (c : Thread nD τ) arg5 fullShare c1 ∗ owns (c : Thread nD τ) arg6 fullShare c2
        ∗ (∃ d, owns (c : Thread nD τ) arg7 fullShare d)
        ∗ (iprop(owns (c : Thread nD τ) arg1 fullShare a ∗ owns (c : Thread nD τ) arg2 fullShare xb ∗ owns (c : Thread nD τ) arg3 fullShare w1
            ∗ owns (c : Thread nD τ) arg4 fullShare w2 ∗ owns (c : Thread nD τ) arg5 fullShare c1 ∗ owns (c : Thread nD τ) arg6 fullShare c2
            ∗ owns (c : Thread nD τ) arg7 fullShare (outBuf i a xb w1 w2 c1 c2)) -∗ K ⟨⟩))
      ⊢ wp frame (wpE (defs₀ (F := F)) Variants.none c none) E (cc0__ngcf_fused i arg1 harg1 arg2 harg2 arg3 harg3 arg4 harg4 arg5 harg5 arg6 harg6 arg7 harg7) K := by
  simp only [cc0__ngcf_fused_eq_skeleton]; unfold cc0__ngcf_fused_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

end Cert.KernelIdeal.Ngcf

end
-- ==== Proof.NgcfData.lean ====
/-
  The pipeline's proof data and the body obligation.

  Entry arrays: what the region finds (`V`). After the body at point `t` each of the six input buffers holds its block
  (the body only reads them) and the output buffer holds `outBuf` of the six input blocks. Windows 2 and 3 read the SAME
  array, the stacked [W1ᵀ; W2ᵀ], at block rows 0 and 1: window 2 holds that array at the left half of the full share and
  window 3 at the right half; every other input array is held whole. The kernel has no scratch buffer, so the invariant
  between points is the core's scoped buffers that are no staging buffer (there is none); nothing is owed.
-/
import proofs.«152794_g85229331022396_cont_9to1_m_1172_3_alg».proof.Proof.NgcfEntry
import proofs.«152794_g85229331022396_cont_9to1_m_1172_3_alg».proof.Proof.NgcfBody

set_option maxRecDepth 16384

noncomputable section

namespace Cert.KernelIdeal.Ngcf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBuf (grid0.coords t) (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
  owed _ := 0

/-- The proof data's arrays are the region-entry contents. -/
theorem A_eq (c : Dev nD) (w : Fin cfg0.W) : (dats m 0 c).A w = V m c (Pipeline.arrRef spec0 w) := by
  dsimp only [dats]

/-- The invariant is the scoped rest at every point. -/
theorem Φ_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

/-! What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outBuf (grid0.coords t) (iblk m c 0 t) (iblk m c 1 t) (iblk m c 2 t) (iblk m c 3 t) (iblk m c 4 t) (iblk m c 5 t) := by dsimp only [dats]

/-! What the body finds in each input's buffer: its block, fetched at this point or not. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`: the invariant, that nothing is owed, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Ngcf

end
-- ==== Proof.NgcfSplit.lean ====
/-
  How the buffers behind the windows' arrays are dealt to the windows when the region begins.

  The seven windows read six buffers: the adjacency, the bf16 `x`, the stacked bf16 weights (twice: windows 2 and 3), the
  two reshaped biases, and the result. Each buffer is held whole at the full share. The stacked weights' full share is
  halved, the left half to window 2 and the right half to window 3 (both only read it); every other window takes its
  buffer at the full share.
-/
import proofs.«152794_g85229331022396_cont_9to1_m_1172_3_alg».proof.Proof.NgcfData

set_option maxRecDepth 16384

noncomputable section

namespace Cert.KernelIdeal.Ngcf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s array holds at entry what the region finds in its buffer. -/
theorem arrAt_zero (c : Dev nD) (w : Fin cfg0.W) : (dats m 0 c).arrAt w 0 = V m c (Pipeline.arrRef spec0 w) := by
  rw [show (dats m 0 c).arrAt w 0 = (dats m 0 c).A w from rfl, A_eq]

/-- The buffers behind the windows' arrays, one by one: six buffers for seven windows. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg1) ↦{fullShare} W main_arg1) ∗ (((c.tc : Thread nD τ).loc main_v0) ↦{fullShare} W main_v0) ∗ (((c.tc : Thread nD τ).loc main_v4) ↦{fullShare} W main_v4) ∗ (((c.tc : Thread nD τ).loc main_v5) ↦{fullShare} W main_v5) ∗ (((c.tc : Thread nD τ).loc main_v6) ↦{fullShare} W main_v6) ∗ (((c.tc : Thread nD τ).loc main_v7) ↦{fullShare} W main_v7)) := by
  unfold Pipeline.arrBufs
  exact bigSep_eq_bigSepL_of_eq [main_arg1, main_v0, main_v4, main_v5, main_v6, main_v7] (by decide) (by decide) _

/-- The dealing, for any contents `W` of the buffers: the stacked weights' points-to is split along its share into a left
    and a right half, which windows 2 and 3 take; every other window takes its buffer's points-to as it is. -/
theorem deal (c : Dev nD) (W : (b : Ref sig .tc) → Buf (Elt F) ((c.tc : Thread nD τ).loc b)) :
    (iprop((((c.tc : Thread nD τ).loc main_arg1) ↦{fullShare} W main_arg1) ∗ (((c.tc : Thread nD τ).loc main_v0) ↦{fullShare} W main_v0) ∗ (((c.tc : Thread nD τ).loc main_v4) ↦{fullShare} W main_v4) ∗ (((c.tc : Thread nD τ).loc main_v5) ↦{fullShare} W main_v5) ∗ (((c.tc : Thread nD τ).loc main_v6) ↦{fullShare} W main_v6) ∗ (((c.tc : Thread nD τ).loc main_v7) ↦{fullShare} W main_v7)) : sProp 𝕄)
      ⊢ iprop((((c.tc : Thread nD τ).loc (Pipeline.arrRef spec0 0)) ↦{fullShare} W (Pipeline.arrRef spec0 0))
          ∗ (((c.tc : Thread nD τ).loc (Pipeline.arrRef spec0 1)) ↦{fullShare} W (Pipeline.arrRef spec0 1))
          ∗ (((c.tc : Thread nD τ).loc (Pipeline.arrRef spec0 2)) ↦{fullShare.left} W (Pipeline.arrRef spec0 2))
          ∗ (((c.tc : Thread nD τ).loc (Pipeline.arrRef spec0 3)) ↦{fullShare.right} W (Pipeline.arrRef spec0 3))
          ∗ (((c.tc : Thread nD τ).loc (Pipeline.arrRef spec0 4)) ↦{fullShare} W (Pipeline.arrRef spec0 4))
          ∗ (((c.tc : Thread nD τ).loc (Pipeline.arrRef spec0 5)) ↦{fullShare} W (Pipeline.arrRef spec0 5))
          ∗ (((c.tc : Thread nD τ).loc (Pipeline.arrRef spec0 6)) ↦{fullShare} W (Pipeline.arrRef spec0 6))) := by
  iintro ⟨Hadj, Hx, Hw, Hb1, Hb2, Hout⟩
  ihave Hw := (pointsTo_share (PosShare.mem_left_op_right fullShare)).1 $$ Hw
  icases Hw with ⟨Hwl, Hwr⟩
  isplitl [Hadj]; · iexact Hadj
  isplitl [Hx]; · iexact Hx
  isplitl [Hwl]; · iexact Hwl
  isplitl [Hwr]; · iexact Hwr
  isplitl [Hb1]; · iexact Hb1
  isplitl [Hb2]; · iexact Hb2
  iexact Hout

/-- The six buffers, each whole at the full share at the entry contents, make the seven windows' arrays at their shares. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  rw [show (dats m 0 c).share 0 = fullShare from rfl, show (dats m 0 c).share 1 = fullShare from rfl,
    show (dats m 0 c).share 2 = fullShare.left from rfl, show (dats m 0 c).share 3 = fullShare.right from rfl,
    show (dats m 0 c).share 4 = fullShare from rfl, show (dats m 0 c).share 5 = fullShare from rfl,
    show (dats m 0 c).share 6 = fullShare from rfl]
  simp only [arrAt_zero m c, View.set_whole]
  exact deal c (V m c)

end Cert.KernelIdeal.Ngcf

end
-- ==== Proof.NgcfRun.lean ====
/-
  The run and the frame. Every weakly fair execution of @main terminates; afterwards each window's array holds what the
  proof data compute (an input what the region found, the result the blocks the body wrote), and every other buffer what it
  held when the region began. Read at the six arguments — the adjacency is window 0's array, the other five bypass the
  region — that is: the arguments end unchanged.
-/
import proofs.«152794_g85229331022396_cont_9to1_m_1172_3_alg».proof.Proof.NgcfSplit
import proofs.«152794_g85229331022396_cont_9to1_m_1172_3_alg».proof.Proof.LibFrameShared

set_option maxRecDepth 16384

noncomputable section

namespace Cert.KernelIdeal.Ngcf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters: @main terminates with every array of the pipeline at the proof data's final
    contents and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hΦ := Φ_eq m)

/-- The frame: the program runs to the end and its six arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 rfl (by decide))).trans (V_main_arg0 m c),
     ((h c).1 0).trans (((dats m 0 c).arrAt_in 0 rfl _).trans ((A_eq m c 0).trans (V_main_arg1 m c))),
     ((h c).2 main_arg2 (Pipeline.mem_restRefs_of main_arg2 rfl (by decide))).trans (V_main_arg2 m c),
     ((h c).2 main_arg3 (Pipeline.mem_restRefs_of main_arg3 rfl (by decide))).trans (V_main_arg3 m c),
     ((h c).2 main_arg4 (Pipeline.mem_restRefs_of main_arg4 rfl (by decide))).trans (V_main_arg4 m c),
     ((h c).2 main_arg5 (Pipeline.mem_restRefs_of main_arg5 rfl (by decide))).trans (V_main_arg5 m c)⟩)
    (run_main m ρ)

end Cert.KernelIdeal.Ngcf

end
-- ==== Proof.NgcfHost.lean ====
/-
  What the region's input blocks hold, element by element, at the ideal instance.
-/
import proofs.«152794_g85229331022396_cont_9to1_m_1172_3_alg».proof.Proof.NgcfEntry
import proofs.«152794_g85229331022396_cont_9to1_m_1172_3_alg».proof.Proof.NgcfBody
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.NgcfValue

open Cert.KernelIdeal Cert.KernelIdeal.Gen Cert.KernelIdeal.Ngcf
open Idealize.ShloMosaic Idealize.ShloMosaic.TcCoe Idealize.ShloMosaic.ValueIdx Idealize.SL.Sem

variable (m : (ℓ : Loc nD τ sig) → Buf (Elt Ideal) ℓ)

/-! ## The arguments, typed by their shapes -/

abbrev argX (c : Dev nD) : S10000x128.Idx → EReal := m ((c : Thread nD τ).loc main_arg0)
abbrev argAdj (c : Dev nD) : S10000x10000.Idx → EReal := m ((c : Thread nD τ).loc main_arg1)
abbrev argW1 (c : Dev nD) : S128x128.Idx → EReal := m ((c : Thread nD τ).loc main_arg2)
abbrev argB1 (c : Dev nD) : S128.Idx → EReal := m ((c : Thread nD τ).loc main_arg3)
abbrev argW2 (c : Dev nD) : S128x128.Idx → EReal := m ((c : Thread nD τ).loc main_arg4)
abbrev argB2 (c : Dev nD) : S128.Idx → EReal := m ((c : Thread nD τ).loc main_arg5)

/-! ## The grid's points and the windows' block indices, decided once over the 25 points -/

/-- The two zero offsets of a whole-buffer access are the zero function. -/
theorem off_zero : (![0, 0] : Fin 2 → Nat) = fun _ => 0 := funext fun a => by fin_cases a <;> rfl

/-- Window 0 moves one block of rows per point; -/
theorem idx_adj : ∀ t : Fin cfg0.N, win0_0.index t (0 : Fin 2) = t.val ∧ win0_0.index t (1 : Fin 2) = 0 :=
  (by decide +kernel : ∀ t : Fin grid0.N, _)
/-- windows 1, 2, 4 and 5 stay at block (0, 0); -/
theorem idx_x : ∀ t : Fin cfg0.N, win0_1.index t (0 : Fin 2) = 0 ∧ win0_1.index t (1 : Fin 2) = 0 :=
  (by decide +kernel : ∀ t : Fin grid0.N, _)
theorem idx_wtop : ∀ t : Fin cfg0.N, win0_2.index t (0 : Fin 2) = 0 ∧ win0_2.index t (1 : Fin 2) = 0 :=
  (by decide +kernel : ∀ t : Fin grid0.N, _)
/-- window 3 stays at block (1, 0). -/
theorem idx_wbot : ∀ t : Fin cfg0.N, win0_3.index t (0 : Fin 2) = 1 ∧ win0_3.index t (1 : Fin 2) = 0 :=
  (by decide +kernel : ∀ t : Fin grid0.N, _)
theorem idx_b1 : ∀ t : Fin cfg0.N, win0_4.index t (0 : Fin 2) = 0 ∧ win0_4.index t (1 : Fin 2) = 0 :=
  (by decide +kernel : ∀ t : Fin grid0.N, _)
theorem idx_b2 : ∀ t : Fin cfg0.N, win0_5.index t (0 : Fin 2) = 0 ∧ win0_5.index t (1 : Fin 2) = 0 :=
  (by decide +kernel : ∀ t : Fin grid0.N, _)
/-- The body's row offset at point `t` is `400·t` (the 32-bit product does not wrap on the grid). -/
theorem off_rows : ∀ t : Fin cfg0.N, k0_off1 (grid0.coords t) (0 : Fin 2) = 400 * t.val ∧ k0_off1 (grid0.coords t) (1 : Fin 2) = 0 :=
  (by decide +kernel : ∀ t : Fin grid0.N, _)

/-! ## The host operations' results when the region begins -/

/-- The bf16 copy of `x` is `x`: a change of float format is the identity on extended reals. -/
theorem V_xbf (c : Dev nD) (k : Fin 10000) (d : Fin 128) :
    (V m c main_v0 : S10000x128.Idx → EReal) (ix2 k d) = argX m c (ix2 k d) := by
  have e : (V m c main_v0 : S10000x128.Idx → EReal) = truncf (F := Ideal) .bf16 (argX m c) bitsLt_bf16_f32 := by
    dsimp only [V, hostOps0]; after_results
  rw [e]; rfl

/-- The stacked weights as the host operations compute them: the two transposes, stacked, in bf16. -/
theorem V_wstack (c : Dev nD) :
    (V m c main_v4 : S256x128.Idx → EReal)
      = truncf (F := Ideal) .bf16 (concatenate S256x128 0 [⟨S128x128, transpose S128x128 [1, 0] (argW1 m c) transposes_S128x128_S128x128_1_0⟩,
          ⟨S128x128, transpose S128x128 [1, 0] (argW2 m c) transposes_S128x128_S128x128_1_0⟩] concatenates_S128x128_S128x128_S256x128_d0) bitsLt_bf16_f32 := by
  dsimp only [V, hostOps0]; after_results

/-- Rows 0‥127 of the stacked weights are `W1` transposed, -/
theorem V_wstack_top (c : Dev nD) (d o : Fin 128) :
    (V m c main_v4 : S256x128.Idx → EReal) (ix2 (⟨d.val, by omega⟩ : Fin 256) o) = argW1 m c (ix2 o d) := by
  rw [V_wstack]
  show concatenate S256x128 0 [⟨S128x128, transpose S128x128 [1, 0] (argW1 m c) transposes_S128x128_S128x128_1_0⟩,
      ⟨S128x128, transpose S128x128 [1, 0] (argW2 m c) transposes_S128x128_S128x128_1_0⟩] concatenates_S128x128_S128x128_S256x128_d0
      (ix2 (⟨d.val, by omega⟩ : Fin 256) o) = _
  refine (concatenate_pair_apply_left (t := S256x128) (s₁ := S128x128) (s₂ := S128x128) (0 : Fin 2) _ _ concatenates_S128x128_S128x128_S256x128_d0 _ rfl (ix2 d o) ?_).trans ?_
  · intro b
    match b with
    | ⟨0, _⟩ => rfl
    | ⟨1, _⟩ => rfl
  · refine transpose_apply [1, 0] (argW1 m c) transposes_S128x128_S128x128_1_0 (ix2 d o) (ix2 o d) ?_
    intro b
    match b with
    | ⟨0, _⟩ => rfl
    | ⟨1, _⟩ => rfl

/-- and rows 128‥255 are `W2` transposed. -/
theorem V_wstack_bot (c : Dev nD) (d o : Fin 128) :
    (V m c main_v4 : S256x128.Idx → EReal) (ix2 (⟨128 + d.val, by omega⟩ : Fin 256) o) = argW2 m c (ix2 o d) := by
  rw [V_wstack]
  show concatenate S256x128 0 [⟨S128x128, transpose S128x128 [1, 0] (argW1 m c) transposes_S128x128_S128x128_1_0⟩,
      ⟨S128x128, transpose S128x128 [1, 0] (argW2 m c) transposes_S128x128_S128x128_1_0⟩] concatenates_S128x128_S128x128_S256x128_d0
      (ix2 (⟨128 + d.val, by omega⟩ : Fin 256) o) = _
  refine (concatenate_pair_apply_right (t := S256x128) (s₁ := S128x128) (s₂ := S128x128) (0 : Fin 2) _ _ concatenates_S128x128_S128x128_S256x128_d0 _ rfl rfl (ix2 d o) ?_ ?_).trans ?_
  · intro b hb
    match b, hb with
    | ⟨0, _⟩, hb => exact absurd rfl hb
    | ⟨1, _⟩, _ => rfl
  · show d.val + 128 = 128 + d.val
    omega
  · refine transpose_apply [1, 0] (argW2 m c) transposes_S128x128_S128x128_1_0 (ix2 d o) (ix2 o d) ?_
    intro b
    match b with
    | ⟨0, _⟩ => rfl
    | ⟨1, _⟩ => rfl

/-- A bias read as a one-row matrix keeps its row-major order: entry `(0, o)` is entry `o`. -/
theorem row_of_vec (x : S128.Idx → EReal) (o : Fin 128) :
    shapeCast S1x128 x shapeCasts_S128_S1x128 (ix2 (0 : Fin 1) o) = x (ix1 o) := by
  refine shapeCast_apply x shapeCasts_S128_S1x128 (ix2 (0 : Fin 1) o) (ix1 o) ?_
  rw [Shape.rowMajor_val_one, Shape.rowMajor_val_two]
  show o.val = (0 : Fin 1).val * 128 + o.val
  simp

/-- The reshaped biases are the biases. -/
theorem V_b1 (c : Dev nD) (o : Fin 128) : (V m c main_v5 : S1x128.Idx → EReal) (ix2 (0 : Fin 1) o) = argB1 m c (ix1 o) := by
  have e : (V m c main_v5 : S1x128.Idx → EReal) = shapeCast S1x128 (argB1 m c) shapeCasts_S128_S1x128 := by
    dsimp only [V, hostOps0]; after_results; rfl
  rw [e]; exact row_of_vec _ o
theorem V_b2 (c : Dev nD) (o : Fin 128) : (V m c main_v6 : S1x128.Idx → EReal) (ix2 (0 : Fin 1) o) = argB2 m c (ix1 o) := by
  have e : (V m c main_v6 : S1x128.Idx → EReal) = shapeCast S1x128 (argB2 m c) shapeCasts_S128_S1x128 := by
    dsimp only [V, hostOps0]; after_results; rfl
  rw [e]; exact row_of_vec _ o

/-! ## Each window's block at a grid point, read at an element

A block's coordinate on an axis is the block index times the block size plus the coordinate inside the block. -/

/-- Window 0: rows `400·t …` of the adjacency, all columns. -/
theorem iblk0_apply (c : Dev nD) (t : Fin cfg0.N) (p : Fin 400) (k : Fin 10000) :
    (iblk m c 0 t : S400x10000.Idx → EReal) (ix2 p k)
      = argAdj m c (ix2 (⟨400 * t.val + p.val, by have h1 : t.val < 25 := t.isLt.trans_eq N_0; have h2 := p.isLt; omega⟩ : Fin 10000) k) := by
  obtain ⟨e0, e1⟩ := idx_adj t
  show V m c main_arg1 (((cfg0.win 0).blk t).view.emb (ix2 p k)) = m ((c : Thread nD τ).loc main_arg1) _
  rw [V_main_arg1]
  refine congrArg _ (funext fun a => Fin.ext ?_)
  match a with
  | ⟨0, _⟩ => show win0_0.index t (0 : Fin 2) * 400 + 1 * p.val = 400 * t.val + p.val; omega
  | ⟨1, _⟩ => show win0_0.index t (1 : Fin 2) * 10000 + 1 * k.val = k.val; omega

/-- Window 1: all of the bf16 `x`. -/
theorem iblk1_apply (c : Dev nD) (t : Fin cfg0.N) (k : Fin 10000) (d : Fin 128) :
    (iblk m c 1 t : S10000x128.Idx → EReal) (ix2 k d) = (V m c main_v0 : S10000x128.Idx → EReal) (ix2 k d) := by
  obtain ⟨e0, e1⟩ := idx_x t
  show V m c main_v0 (((cfg0.win 1).blk t).view.emb (ix2 k d)) = V m c main_v0 (ix2 k d)
  refine congrArg _ (funext fun a => Fin.ext ?_)
  match a with
  | ⟨0, _⟩ => show win0_1.index t (0 : Fin 2) * 10000 + 1 * k.val = k.val; omega
  | ⟨1, _⟩ => show win0_1.index t (1 : Fin 2) * 128 + 1 * d.val = d.val; omega

/-- Windows 2 and 3: block rows 0 and 1 of the stacked weights. -/
theorem iblk2_apply (c : Dev nD) (t : Fin cfg0.N) (d o : Fin 128) :
    (iblk m c 2 t : S128x128.Idx → EReal) (ix2 d o) = (V m c main_v4 : S256x128.Idx → EReal) (ix2 (⟨d.val, by omega⟩ : Fin 256) o) := by
  obtain ⟨e0, e1⟩ := idx_wtop t
  show V m c main_v4 (((cfg0.win 2).blk t).view.emb (ix2 d o)) = V m c main_v4 (ix2 (⟨d.val, by omega⟩ : Fin 256) o)
  refine congrArg _ (funext fun a => Fin.ext ?_)
  match a with
  | ⟨0, _⟩ => show win0_2.index t (0 : Fin 2) * 128 + 1 * d.val = d.val; omega
  | ⟨1, _⟩ => show win0_2.index t (1 : Fin 2) * 128 + 1 * o.val = o.val; omega
theorem iblk3_apply (c : Dev nD) (t : Fin cfg0.N) (d o : Fin 128) :
    (iblk m c 3 t : S128x128.Idx → EReal) (ix2 d o) = (V m c main_v4 : S256x128.Idx → EReal) (ix2 (⟨128 + d.val, by omega⟩ : Fin 256) o) := by
  obtain ⟨e0, e1⟩ := idx_wbot t
  show V m c main_v4 (((cfg0.win 3).blk t).view.emb (ix2 d o)) = V m c main_v4 (ix2 (⟨128 + d.val, by omega⟩ : Fin 256) o)
  refine congrArg _ (funext fun a => Fin.ext ?_)
  match a with
  | ⟨0, _⟩ => show win0_3.index t (0 : Fin 2) * 128 + 1 * d.val = 128 + d.val; omega
  | ⟨1, _⟩ => show win0_3.index t (1 : Fin 2) * 128 + 1 * o.val = o.val; omega

/-- Windows 4 and 5: the bias rows. -/
theorem iblk4_apply (c : Dev nD) (t : Fin cfg0.N) (o : Fin 128) :
    (iblk m c 4 t : S1x128.Idx → EReal) (ix2 (0 : Fin 1) o) = (V m c main_v5 : S1x128.Idx → EReal) (ix2 (0 : Fin 1) o) := by
  obtain ⟨e0, e1⟩ := idx_b1 t
  show V m c main_v5 (((cfg0.win 4).blk t).view.emb (ix2 (0 : Fin 1) o)) = V m c main_v5 (ix2 (0 : Fin 1) o)
  refine congrArg _ (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 128 + 1 * o.val = o.val; omega
theorem iblk5_apply (c : Dev nD) (t : Fin cfg0.N) (o : Fin 128) :
    (iblk m c 5 t : S1x128.Idx → EReal) (ix2 (0 : Fin 1) o) = (V m c main_v6 : S1x128.Idx → EReal) (ix2 (0 : Fin 1) o) := by
  obtain ⟨e0, e1⟩ := idx_b2 t
  show V m c main_v6 (((cfg0.win 5).blk t).view.emb (ix2 (0 : Fin 1) o)) = V m c main_v6 (ix2 (0 : Fin 1) o)
  refine congrArg _ (funext fun a => Fin.ext ?_)
  match a with
  | ⟨0, _⟩ => show win0_5.index t (0 : Fin 2) * 1 + 1 * (0 : Fin 1).val = (0 : Fin 1).val; omega
  | ⟨1, _⟩ => show win0_5.index t (1 : Fin 2) * 128 + 1 * o.val = o.val; omega

/-! ## The body's loads, read at an element -/

/-- A whole-buffer load is the buffer. -/
theorem ld_adj (a : Vec Ideal S400x10000 .f32) : View.ld a rAdj = a := View.ld_unit_zero (S := S400x10000) off_zero _ a
theorem ld_x (xb : Vec Ideal S10000x128 .bf16) : View.ld xb rX = xb := View.ld_unit_zero (S := S10000x128) off_zero _ xb
theorem ld_w (w : Vec Ideal S128x128 .bf16) : View.ld w rW = w := View.ld_unit_zero (S := S128x128) off_zero _ w
theorem ld_b (b : Vec Ideal S1x128 .f32) : View.ld b rB = b := View.ld_unit_zero (S := S1x128) off_zero _ b

/-- The point's own rows of `x`: row `p` of the load is row `400·t + p` of the buffer. -/
theorem ld_xrows (xb : Vec Ideal S10000x128 .bf16) (t : Fin cfg0.N) (p : Fin 400) (d : Fin 128) :
    (View.ld xb (rXrows (grid0.coords t)) : S400x128.Idx → EReal) (ix2 p d)
      = xb (ix2 (⟨400 * t.val + p.val, by have h1 : t.val < 25 := t.isLt.trans_eq N_0; have h2 := p.isLt; omega⟩ : Fin 10000) d) := by
  obtain ⟨e0, e1⟩ := off_rows t
  refine congrArg xb (funext fun a => Fin.ext ?_)
  match a with
  | ⟨0, _⟩ => show k0_off1 (grid0.coords t) (0 : Fin 2) + 1 * p.val = 400 * t.val + p.val; omega
  | ⟨1, _⟩ => show k0_off1 (grid0.coords t) (1 : Fin 2) + 1 * d.val = d.val; omega

end Cert.KernelIdeal.NgcfValue

end
-- ==== Proof.Spec.lean ====
/-
  The layer's result as ONE function of the six argument arrays, over the extended reals.

  With `x : [10000,128]`, `adj : [10000,10000]`, `W1, W2 : [128,128]`, `b1, b2 : [128]`, at row `r` and output
  column `o`:

    nb r d   = ∑ k, adj[r,k] · x[k,d]                       the neighbours' sum (adj · x)
    lin1 r o = ∑ d, nb r d · W1[o,d]                         (adj · x) · W1ᵀ
    lin2 r o = ∑ d, (x[r,d] · nb r d) · W2[o,d]              (x ∘ (adj · x)) · W2ᵀ
    pre r o  = lin1 r o + lin2 r o + b1[o] + b2[o]
    G[r,o]   = leaky (pre r o),   leaky h = h if h ≥ 0 else 0.2f · h

  The two programs group the four summands of `pre` differently — one adds both products first and the biases after,
  the other adds `b1` between the two products. On the extended reals addition is a commutative monoid (with
  `⊥ + ⊤ = ⊥`), so the regrouping holds for every input, finite or not: `pre_regroup`.
  The slope `0.2f` is the same 32-bit pattern in both programs and is never evaluated.
-/
import Idealize.ShloMosaic.PureOps.Ideal
import Idealize.ShloMosaic.Lib.ValueIdx

noncomputable section

open scoped BigOperators

namespace Cert.NgcfSpec

open Idealize.ShloMosaic Idealize.ShloMosaic.ValueIdx

/-- The shapes of the arguments: node features, adjacency, a weight matrix, a bias. -/
abbrev SX : Shape := ⟨2, ![10000, 128]⟩
abbrev SA : Shape := ⟨2, ![10000, 10000]⟩
abbrev SW : Shape := ⟨2, ![128, 128]⟩
abbrev Sb : Shape := ⟨1, ![128]⟩

variable (x : SX.Idx → EReal) (adj : SA.Idx → EReal) (W1 : SW.Idx → EReal) (b1 : Sb.Idx → EReal)
  (W2 : SW.Idx → EReal) (b2 : Sb.Idx → EReal)

/-- Row `r` of `adj · x` at feature `d`: the sum of the neighbours' features weighted by the adjacency row. -/
def nb (r : Fin 10000) (d : Fin 128) : EReal := ∑ k : Fin 10000, adj (ix2 r k) * x (ix2 k d)

/-- `(adj · x) · W1ᵀ` at `(r, o)`. -/
def lin1 (r : Fin 10000) (o : Fin 128) : EReal := ∑ d : Fin 128, nb x adj r d * W1 (ix2 o d)

/-- `(x ∘ (adj · x)) · W2ᵀ` at `(r, o)`: the elementwise interaction of a node with its neighbours' sum, transformed. -/
def lin2 (r : Fin 10000) (o : Fin 128) : EReal := ∑ d : Fin 128, (x (ix2 r d) * nb x adj r d) * W2 (ix2 o d)

/-- The pre-activation, both products first and the two biases after. -/
def pre (r : Fin 10000) (o : Fin 128) : EReal :=
  lin1 x adj W1 r o + lin2 x adj W2 r o + b1 (ix1 o) + b2 (ix1 o)

/-- The same four summands with `b1` added between the two products: addition of extended reals is commutative and
    associative, so nothing about finiteness is needed. -/
theorem pre_regroup (r : Fin 10000) (o : Fin 128) :
    lin1 x adj W1 r o + b1 (ix1 o) + lin2 x adj W2 r o + b2 (ix1 o) = pre x adj W1 b1 W2 b2 r o := by
  unfold pre
  rw [add_right_comm (lin1 x adj W1 r o) (b1 (ix1 o)) (lin2 x adj W2 r o)]

/-- LeakyReLU with the slope the programs spell `0x3E4CCCCD`: `h` where `h ≥ 0`, the slope times `h` elsewhere, in
    the float operations read at the ideal instance (the comparison of extended reals, their product). -/
def leaky (h : Ideal .f32) : Ideal .f32 :=
  Scalar.select (FloatOps.cmpf (F := Ideal) .oge h (FloatOps.ofBits (F := Ideal) .f32 0x00000000#32)) h
    (FloatOps.mulf (F := Ideal) (FloatOps.ofBits (F := Ideal) .f32 0x3E4CCCCD#32) h)

/-- The layer's result, index by index. -/
def G : SX.Idx → EReal := fun i => leaky (pre x adj W1 b1 W2 b2 (i 0) (i 1))

/-- `G` at the index with coordinates `(r, o)`. -/
theorem G_ix2 (r : Fin 10000) (o : Fin 128) :
    G x adj W1 b1 W2 b2 (ix2 r o) = leaky (pre x adj W1 b1 W2 b2 r o) := rfl

end Cert.NgcfSpec

end
-- ==== Proof.NgcfPayload.lean ====
/-
  The body's arithmetic at one element.
-/
import proofs.«152794_g85229331022396_cont_9to1_m_1172_3_alg».proof.Proof.Gen.KernelIdeal.Skeleton
import proofs.«152794_g85229331022396_cont_9to1_m_1172_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.NgcfValue

open Cert.KernelIdeal Cert.KernelIdeal.Gen
open Idealize.ShloMosaic Idealize.ShloMosaic.ValueIdx Cert.NgcfSpec

/-! ### The neighbours' product `a · xb` ([400,10000] × [10000,128]): the operand indices, axis by axis -/

/-- The left operand's row is the output's row. -/
theorem lhs_nb_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
/-- The left operand's column is the contracted coordinate. -/
theorem lhs_nb_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
/-- The right operand's row is the contracted coordinate. -/
theorem rhs_nb_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
/-- The right operand's column is the output's column. -/
theorem rhs_nb_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The neighbours' product into the zero splat, at row `p` and feature `c`: the sum over the 10000 nodes. -/
theorem nb_matmul_apply (l : FVec Ideal S400x10000 .bf16) (r : FVec Ideal S10000x128 .bf16) (p : Fin 400) (c : Fin 128) :
    matmul dot_S400x10000_S10000x128_S400x128_1_0_0_1_n_n none l r (constant (F := Ideal) S400x128 .f32 0x00000000#32) (ix2 p c)
      = ∑ k : Fin 10000, l (ix2 p k) * r (ix2 k c) := by
  refine (Ideal.matmul_constant_zero_apply dot_S400x10000_S10000x128_S400x128_1_0_0_1_n_n none l r (ix2 p c)).trans ?_
  rw [← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p c) ((contrEquiv1 dot_S400x10000_S10000x128_S400x128_1_0_0_1_n_n 10000 rfl rfl).symm k) = ix2 p k := funext fun ax => Fin.ext (by
    match ax with
    | ⟨0, _⟩ => exact lhs_nb_0 _ _
    | ⟨1, _⟩ => exact (lhs_nb_1 _ _).trans hk)
  have er : dot_S400x10000_S10000x128_S400x128_1_0_0_1_n_n.rhsIdx (ix2 p c) ((contrEquiv1 dot_S400x10000_S10000x128_S400x128_1_0_0_1_n_n 10000 rfl rfl).symm k) = ix2 k c := funext fun ax => Fin.ext (by
    match ax with
    | ⟨0, _⟩ => exact (rhs_nb_0 _ _).trans hk
    | ⟨1, _⟩ => exact rhs_nb_1 _ _)
  rw [el, er]

/-! ### A product with a weight block ([400,128] × [128,128]): the operand indices, axis by axis -/

/-- The left operand's row is the output's row. -/
theorem lhs_lin_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
/-- The left operand's column is the contracted coordinate. -/
theorem lhs_lin_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
/-- The right operand's row is the contracted coordinate. -/
theorem rhs_lin_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
/-- The right operand's column is the output's column. -/
theorem rhs_lin_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- A product with a weight block into the zero splat, at row `p` and output column `c`: the sum over the 128 features. -/
theorem lin_matmul_apply (l : FVec Ideal S400x128 .bf16) (r : FVec Ideal S128x128 .bf16) (p : Fin 400) (c : Fin 128) :
    matmul dot_S400x128_S128x128_S400x128_1_0_0_1_n_n none l r (constant (F := Ideal) S400x128 .f32 0x00000000#32) (ix2 p c)
      = ∑ k : Fin 128, l (ix2 p k) * r (ix2 k c) := by
  refine (Ideal.matmul_constant_zero_apply dot_S400x128_S128x128_S400x128_1_0_0_1_n_n none l r (ix2 p c)).trans ?_
  rw [← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p c) ((contrEquiv1 dot_S400x128_S128x128_S400x128_1_0_0_1_n_n 128 rfl rfl).symm k) = ix2 p k := funext fun ax => Fin.ext (by
    match ax with
    | ⟨0, _⟩ => exact lhs_lin_0 _ _
    | ⟨1, _⟩ => exact (lhs_lin_1 _ _).trans hk)
  have er : dot_S400x128_S128x128_S400x128_1_0_0_1_n_n.rhsIdx (ix2 p c) ((contrEquiv1 dot_S400x128_S128x128_S400x128_1_0_0_1_n_n 128 rfl rfl).symm k) = ix2 k c := funext fun ax => Fin.ext (by
    match ax with
    | ⟨0, _⟩ => exact (rhs_lin_0 _ _).trans hk
    | ⟨1, _⟩ => exact rhs_lin_1 _ _)
  rw [el, er]

/-! ### The activation over a whole vector, read at an index -/

/-- The body's last three operations — compare with the zero splat, scale by the slope splat, select — read at an index
    are `leaky` of the element there: every one of them is pointwise, and the two splats read their words. -/
theorem leaky_vec_apply (v : FVec Ideal S400x128 .f32) (i : S400x128.Idx) :
    select (cmpf .oge v (broadcast S400x128 (Scalar.ofBits (F := Ideal) .f32 0x00000000#32))) v
        (mulf (broadcast S400x128 (Scalar.ofBits (F := Ideal) .f32 0x3E4CCCCD#32)) v) i
      = leaky (v i) := rfl

/-- The stored value at row `p` of the block and output column `o`, at the ideal instance, from the seven loaded values:
    `a` the adjacency rows, `xb` all of `x`, `xr` this point's rows of `x`, `w1`, `w2` the two weight blocks (already
    transposed: entry `(d, o)`), `c1`, `c2` the bias rows. -/
theorem pay_apply (a : Vec Ideal S400x10000 .f32) (xb : Vec Ideal S10000x128 .bf16) (xr : Vec Ideal S400x128 .bf16)
    (w1 w2 : Vec Ideal S128x128 .bf16) (c1 c2 : Vec Ideal S1x128 .f32) (p : Fin 400) (o : Fin 128) :
    k0_pay1 (F := Ideal) a xb xr w1 w2 c1 c2 (ix2 p o)
      = leaky ((∑ d : Fin 128, (∑ k : Fin 10000, a (ix2 p k) * xb (ix2 k d)) * w1 (ix2 d o))
          + (∑ d : Fin 128, (xr (ix2 p d) * (∑ k : Fin 10000, a (ix2 p k) * xb (ix2 k d))) * w2 (ix2 d o))
          + c1 (ix2 (0 : Fin 1) o) + c2 (ix2 (0 : Fin 1) o)) := by
  unfold k0_pay1
  simp only [shapeCast_self]
  -- the neighbours' sum, named once: both products read it
  generalize hnb : matmul (F := Ideal) (φ₁ := .bf16) (φ₂ := .bf16) dot_S400x10000_S10000x128_S400x128_1_0_0_1_n_n none
    (truncf (F := Ideal) (φ := .f32) .bf16 a bitsLt_bf16_f32) xb (constant (F := Ideal) S400x128 .f32 0x00000000#32) = nbv
  have h_nb : ∀ d : Fin 128, nbv (ix2 p d) = ∑ k : Fin 10000, a (ix2 p k) * xb (ix2 k d) := fun d => by
    rw [← hnb]; exact nb_matmul_apply _ _ p d
  -- the activation is pointwise: what is left is the pre-activation at (p, o)
  refine (leaky_vec_apply _ _).trans (congrArg leaky ?_)
  -- … + c2
  refine (addf_apply _ _ _).trans ?_
  refine congrArg₂ (· + ·) ?_ (broadcastTo_1b_ab_apply c2 _ p o)
  -- … + c1
  refine (addf_apply _ _ _).trans ?_
  refine congrArg₂ (· + ·) ?_ (broadcastTo_1b_ab_apply c1 _ p o)
  -- the two products
  refine (addf_apply _ _ _).trans ?_
  refine congrArg₂ (· + ·) ?_ ?_
  · refine (lin_matmul_apply _ w1 p o).trans ?_
    refine Finset.sum_congr rfl fun d _ => ?_
    exact congrArg (· * w1 (ix2 d o)) (h_nb d)
  · refine (lin_matmul_apply _ w2 p o).trans ?_
    refine Finset.sum_congr rfl fun d _ => ?_
    exact congrArg (fun t => (xr (ix2 p d) * t) * w2 (ix2 d o)) (h_nb d)

end Cert.KernelIdeal.NgcfValue

end
-- ==== Proof.NgcfFinal.lean ====
/-
  The result array after the run is `G` of the arguments, at the ideal instance.

  At grid point `t` the body stores into the output buffer the payload of its loads; read at row `p`, column `o` and
  with every load traced back to the arguments (the adjacency rows `400·t + p`, the whole `x`, row `400·t + p` of `x`
  again, `W1ᵀ` and `W2ᵀ` out of the stacked array, the two biases) that is `G` at row `400·t + p`, column `o`. The
  pipeline writes the buffer back to rows `400·t … 400·t + 399` of the result, so what point `t` writes back is block
  `t` of `G`; the 25 blocks of 400 rows cover the 10000 rows (row `r` lies in block `r / 400`), so the result array
  ends holding `G` everywhere.
-/
import proofs.«152794_g85229331022396_cont_9to1_m_1172_3_alg».proof.Proof.NgcfRun
import proofs.«152794_g85229331022396_cont_9to1_m_1172_3_alg».proof.Proof.NgcfHost
import proofs.«152794_g85229331022396_cont_9to1_m_1172_3_alg».proof.Proof.NgcfPayload
import proofs.«152794_g85229331022396_cont_9to1_m_1172_3_alg».proof.Proof.Spec
import Idealize.ShloMosaic.Lib.Pipeline.Value

set_option maxRecDepth 16384

noncomputable section

open scoped BigOperators

namespace Cert.KernelIdeal.NgcfValue

open Cert.KernelIdeal Cert.KernelIdeal.Gen Cert.KernelIdeal.Ngcf
open Idealize.ShloMosaic Idealize.ShloMosaic.TcCoe Idealize.ShloMosaic.ValueIdx Idealize.SL.Sem Cert.NgcfSpec
open Idealize.ShloMosaic.Pipeline (Dat)

variable (m : (ℓ : Loc nD τ sig) → Buf (Elt Ideal) ℓ) (ρ : Dev nD → PrngReg)

/-- `G` of core `c`'s six arguments as launched. -/
abbrev Gm (c : Dev nD) : S10000x128.Idx → EReal :=
  G (argX m c) (argAdj m c) (argW1 m c) (argB1 m c) (argW2 m c) (argB2 m c)

/-- Row `p` of grid point `t`'s block is row `400·t + p` of the array. -/
abbrev rowOf (t : Fin cfg0.N) (p : Fin 400) : Fin 10000 :=
  ⟨400 * t.val + p.val, by have h1 : t.val < 25 := t.isLt.trans_eq N_0; have h2 := p.isLt; omega⟩

theorem hz : (![0, 0] : Fin 2 → Nat) = fun _ => 0 := funext fun a => by fin_cases a <;> rfl

/-! ## The input blocks at point `t`, typed by their literal shapes -/

abbrev blkAdj (c : Dev nD) (t : Fin cfg0.N) : Vec Ideal S400x10000 .f32 := iblk m c 0 t
abbrev blkX (c : Dev nD) (t : Fin cfg0.N) : Vec Ideal S10000x128 .bf16 := iblk m c 1 t
abbrev blkW1 (c : Dev nD) (t : Fin cfg0.N) : Vec Ideal S128x128 .bf16 := iblk m c 2 t
abbrev blkW2 (c : Dev nD) (t : Fin cfg0.N) : Vec Ideal S128x128 .bf16 := iblk m c 3 t
abbrev blkB1 (c : Dev nD) (t : Fin cfg0.N) : Vec Ideal S1x128 .f32 := iblk m c 4 t
abbrev blkB2 (c : Dev nD) (t : Fin cfg0.N) : Vec Ideal S1x128 .f32 := iblk m c 5 t

/-- The neighbours' sum the body computes at point `t`, row `p`, feature `d`, is `nb` at row `400·t + p`. -/
theorem nb_blk (c : Dev nD) (t : Fin cfg0.N) (p : Fin 400) (d : Fin 128) :
    (∑ k : Fin 10000, blkAdj m c t (ix2 p k) * blkX m c t (ix2 k d)) = nb (argX m c) (argAdj m c) (rowOf t p) d := by
  unfold nb
  exact Finset.sum_congr rfl fun k _ =>
    congrArg₂ (· * ·) (iblk0_apply m c t p k) ((iblk1_apply m c t k d).trans (V_xbf m c k d))

/-- What the body leaves in the output buffer at point `t`, at row `p` and column `o`: `G` at row `400·t + p`. -/
theorem outBuf_apply (c : Dev nD) (t : Fin cfg0.N) (p : Fin 400) (o : Fin 128) :
    (outBuf (grid0.coords t) (blkAdj m c t) (blkX m c t) (blkW1 m c t) (blkW2 m c t) (blkB1 m c t) (blkB2 m c t) : S400x128.Idx → EReal) (ix2 p o)
      = Gm m c (ix2 (rowOf t p) o) := by
  unfold outBuf
  rw [View.canon_unit_zero hz, ld_adj, ld_x, ld_w, ld_w, ld_b, ld_b]
  refine (pay_apply (blkAdj m c t) (blkX m c t) (View.ld (blkX m c t) (rXrows (grid0.coords t))) (blkW1 m c t) (blkW2 m c t)
    (blkB1 m c t) (blkB2 m c t) p o).trans ?_
  show leaky _ = leaky (pre (argX m c) (argAdj m c) (argW1 m c) (argB1 m c) (argW2 m c) (argB2 m c) (rowOf t p) o)
  refine congrArg leaky ?_
  unfold pre lin1 lin2
  have h1 : (∑ d : Fin 128, (∑ k : Fin 10000, blkAdj m c t (ix2 p k) * blkX m c t (ix2 k d)) * blkW1 m c t (ix2 d o))
      = ∑ d : Fin 128, nb (argX m c) (argAdj m c) (rowOf t p) d * argW1 m c (ix2 o d) :=
    Finset.sum_congr rfl fun d _ =>
      congrArg₂ (· * ·) (nb_blk m c t p d) ((iblk2_apply m c t d o).trans (V_wstack_top m c d o))
  have h2 : (∑ d : Fin 128, ((View.ld (blkX m c t) (rXrows (grid0.coords t)) : S400x128.Idx → EReal) (ix2 p d)
        * (∑ k : Fin 10000, blkAdj m c t (ix2 p k) * blkX m c t (ix2 k d))) * blkW2 m c t (ix2 d o))
      = ∑ d : Fin 128, (argX m c (ix2 (rowOf t p) d) * nb (argX m c) (argAdj m c) (rowOf t p) d) * argW2 m c (ix2 o d) :=
    Finset.sum_congr rfl fun d _ =>
      congrArg₂ (· * ·)
        (congrArg₂ (· * ·)
          ((ld_xrows (blkX m c t) t p d).trans ((iblk1_apply m c t (rowOf t p) d).trans (V_xbf m c (rowOf t p) d)))
          (nb_blk m c t p d))
        ((iblk3_apply m c t d o).trans (V_wstack_bot m c d o))
  exact congrArg₂ (· + ·)
    (congrArg₂ (· + ·) (congrArg₂ (· + ·) h1 h2) ((iblk4_apply m c t o).trans (V_b1 m c o)))
    ((iblk5_apply m c t o).trans (V_b2 m c o))

/-! ## From blocks to the array -/

/-- The result window's index map over the grid: block row `t`, block column 0. -/
theorem idx_out : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-- What point `t` writes back is block `t` of `G`. -/
theorem flushed_eq (c : Dev nD) (t : Fin cfg0.N) :
    (dats m 0 c).flushed 6 t = ((cfg0.win 6).blk t).view.read (Elt Ideal) (Gm m c) := by
  show (cfg0.win 6).cut (grid0.coords t) ((dats m 0 c).after 6 t) = _
  rw [after6]
  funext j
  obtain ⟨p, o, rfl⟩ : ∃ (p : Fin 400) (o : Fin 128), j = ix2 p o := ⟨j 0, j 1, eq_ix2 j⟩
  show (outBuf (grid0.coords t) (blkAdj m c t) (blkX m c t) (blkW1 m c t) (blkW2 m c t) (blkB1 m c t) (blkB2 m c t) : S400x128.Idx → EReal) (ix2 p o)
    = Gm m c (((cfg0.win 6).blk t).view.emb (ix2 p o))
  rw [outBuf_apply]
  obtain ⟨e0, e1⟩ := idx_out t
  refine congrArg (Gm m c) ?_
  funext a; apply Fin.ext
  match a with
  | ⟨0, _⟩ => show 400 * t.val + p.val = win0_6.index t (0 : Fin 2) * 400 + 1 * p.val; omega
  | ⟨1, _⟩ => show o.val = win0_6.index t (1 : Fin 2) * 128 + 1 * o.val; omega

/-- An index of the result array is in point `t`'s block iff each coordinate is in the block's range on its axis. -/
theorem mem_blk (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v7).slice (win0_6.rect t)).set ↔ _
  rw [View.set_slice_whole, Rect.mem_set_unit]
  exact Iff.rfl

/-- Every index of the result array lies in the block of the point `row / 400`, which writes it back. -/
theorem cover (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  let t : Fin cfg0.N := ⟨(i 0).val / 400, by have hN : cfg0.N = 25 := N_0; omega⟩
  obtain ⟨e0, e1⟩ := idx_out t
  have ht : t.val = (i 0).val / 400 := rfl
  refine ⟨t, flush0_6 t, ?_⟩
  rw [mem_blk]
  intro a
  match a with
  | ⟨0, _⟩ => show win0_6.index t (0 : Fin 2) * 400 ≤ (i 0).val ∧ (i 0).val < win0_6.index t (0 : Fin 2) * 400 + 400; omega
  | ⟨1, _⟩ => show win0_6.index t (1 : Fin 2) * 128 ≤ (i 1).val ∧ (i 1).val < win0_6.index t (1 : Fin 2) * 128 + 128; omega

/-- The result array after the run. -/
theorem final (c : Dev nD) : (dats m 0 c).arrAt 6 cfg0.N = Gm m c :=
  (dats m 0 c).arrAt_eq_of_cover 6 (Gm m c) (fun t _ => flushed_eq m c t) cover

/-- The run at the ideal instance, with the result named: it ends at `G` of the arguments, which end unchanged. -/
theorem run : θ_run defs (onTc (τ := τ) (main (F := Ideal))) ⟨m, fun _ => 0, ρ⟩ fun r => ∀ c : Dev nD,
      r.2.mem ((c.tc : Thread nD τ).loc main_v7) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).1 6).trans (final m c),
     ((h c).2 main_arg0 (Pipeline.mem_restRefs_of main_arg0 rfl (by decide))).trans (V_main_arg0 m c),
     ((h c).1 0).trans (((dats m 0 c).arrAt_in 0 rfl _).trans ((A_eq m c 0).trans (V_main_arg1 m c))),
     ((h c).2 main_arg2 (Pipeline.mem_restRefs_of main_arg2 rfl (by decide))).trans (V_main_arg2 m c),
     ((h c).2 main_arg3 (Pipeline.mem_restRefs_of main_arg3 rfl (by decide))).trans (V_main_arg3 m c),
     ((h c).2 main_arg4 (Pipeline.mem_restRefs_of main_arg4 rfl (by decide))).trans (V_main_arg4 m c),
     ((h c).2 main_arg5 (Pipeline.mem_restRefs_of main_arg5 rfl (by decide))).trans (V_main_arg5 m c)⟩)
    (run_main m ρ)

end Cert.KernelIdeal.NgcfValue

end
-- ==== Proof.RefG.lean ====
/-
  The reference computes `G`.

  The reference's stages are read at the index with coordinates `(r, o)`, innermost first: the neighbours' sum
  `adj · x` is `nb`, the two products with the transposed weights are `lin1` and `lin2` (a transpose read at `(d, o)`
  is the weight at `(o, d)`), a bias broadcast along the rows reads the bias at `o`, and the four summands, which the
  reference adds as `((lin1 + b1) + lin2) + b2`, are `pre` by the regrouping law of the specification. The comparison
  with the broadcast zero word, the product with the broadcast slope word and the select are then `leaky` as written.
-/
import proofs.«152794_g85229331022396_cont_9to1_m_1172_3_alg».proof.Proof.Gen.ReferenceIdeal.Read
import proofs.«152794_g85229331022396_cont_9to1_m_1172_3_alg».proof.Proof.Spec

noncomputable section

open scoped BigOperators

namespace Cert.ReferenceIdeal.NgcfRef

open Cert.ReferenceIdeal Cert.ReferenceIdeal.Gen Cert.ReferenceIdeal.Read
open Idealize.ShloMosaic Idealize.ShloMosaic.ValueIdx Cert.NgcfSpec

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-! ## The index maps of the stages, at an index given by its coordinates -/

/-- The adjacency operand of `adj · x` at `(r, d)`, summand `k`, is read at `(r, k)`. -/
theorem lidx_v0 (r : Fin 10000) (d : Fin 128) (k : Fin 10000) : lidx_main_v0 (ix2 r d) k = ix2 r k :=
  funext fun a => Fin.ext (by match a with | ⟨0, _⟩ => rfl | ⟨1, _⟩ => rfl)
/-- The feature operand of `adj · x` at `(r, d)`, summand `k`, is read at `(k, d)`. -/
theorem ridx_v0 (r : Fin 10000) (d : Fin 128) (k : Fin 10000) : ridx_main_v0 (ix2 r d) k = ix2 k d :=
  funext fun a => Fin.ext (by match a with | ⟨0, _⟩ => rfl | ⟨1, _⟩ => rfl)
/-- The left operand of the first weight product at `(r, o)`, summand `d`, is read at `(r, d)`. -/
theorem lidx_v3 (r : Fin 10000) (o d : Fin 128) : lidx_main_v3 (ix2 r o) d = ix2 r d :=
  funext fun a => Fin.ext (by match a with | ⟨0, _⟩ => rfl | ⟨1, _⟩ => rfl)
/-- The transposed first weight at `(d, o)` is the weight at `(o, d)`. -/
theorem ridx_v3 (r : Fin 10000) (o d : Fin 128) : idx_main_v2 (ridx_main_v3 (ix2 r o) d) = ix2 o d :=
  funext fun a => Fin.ext (by match a with | ⟨0, _⟩ => rfl | ⟨1, _⟩ => rfl)
/-- The left operand of the second weight product at `(r, o)`, summand `d`, is read at `(r, d)`. -/
theorem lidx_v8 (r : Fin 10000) (o d : Fin 128) : lidx_main_v8 (ix2 r o) d = ix2 r d :=
  funext fun a => Fin.ext (by match a with | ⟨0, _⟩ => rfl | ⟨1, _⟩ => rfl)
/-- The transposed second weight at `(d, o)` is the weight at `(o, d)`. -/
theorem ridx_v8 (r : Fin 10000) (o d : Fin 128) : idx_main_v7 (ridx_main_v8 (ix2 r o) d) = ix2 o d :=
  funext fun a => Fin.ext (by match a with | ⟨0, _⟩ => rfl | ⟨1, _⟩ => rfl)
/-- The first bias, broadcast along the rows, is read at `o`. -/
theorem idx_v5 (r : Fin 10000) (o : Fin 128) : idx_main_v4 (idx_main_v5 (ix2 r o)) = ix1 o :=
  funext fun a => Fin.ext (by match a with | ⟨0, _⟩ => rfl)
/-- The second bias, broadcast along the rows, is read at `o`. -/
theorem idx_v11 (r : Fin 10000) (o : Fin 128) : idx_main_v10 (idx_main_v11 (ix2 r o)) = ix1 o :=
  funext fun a => Fin.ext (by match a with | ⟨0, _⟩ => rfl)

/-! ## The stages at `(r, o)` -/

/-- `adj · x` at `(r, d)` is the neighbours' sum. -/
theorem v0_eq_nb (r : Fin 10000) (d : Fin 128) : val_main_v0 (F := Ideal) x0 x1 (ix2 r d) = nb x0 x1 r d := by
  rw [val_main_v0_apply]
  unfold nb
  refine Finset.sum_congr rfl fun k _ => ?_
  rw [lidx_v0, ridx_v0]

/-- The first weight product at `(r, o)`. -/
theorem v3_eq_lin1 (r : Fin 10000) (o : Fin 128) : val_main_v3 (F := Ideal) x0 x1 x2 (ix2 r o) = lin1 x0 x1 x2 r o := by
  rw [val_main_v3_apply]
  unfold lin1
  refine Finset.sum_congr rfl fun d _ => ?_
  rw [lidx_v3, v0_eq_nb, val_main_v2_apply, ridx_v3]

/-- The second weight product at `(r, o)`: its left operand is the node's feature times the neighbours' sum. -/
theorem v8_eq_lin2 (r : Fin 10000) (o : Fin 128) : val_main_v8 (F := Ideal) x0 x1 x4 (ix2 r o) = lin2 x0 x1 x4 r o := by
  rw [val_main_v8_apply]
  unfold lin2
  refine Finset.sum_congr rfl fun d _ => ?_
  rw [lidx_v8, val_main_v1_apply, v0_eq_nb, val_main_v7_apply, ridx_v8]
  rfl

/-- The first bias's broadcast at `(r, o)`. -/
theorem v5_eq_b1 (r : Fin 10000) (o : Fin 128) : val_main_v5 (F := Ideal) x3 (ix2 r o) = x3 (ix1 o) := by
  rw [val_main_v5_apply, val_main_v4_apply, idx_v5]

/-- The second bias's broadcast at `(r, o)`. -/
theorem v11_eq_b2 (r : Fin 10000) (o : Fin 128) : val_main_v11 (F := Ideal) x5 (ix2 r o) = x5 (ix1 o) := by
  rw [val_main_v11_apply, val_main_v10_apply, idx_v11]

/-- The sum of the four summands at `(r, o)`, which the reference adds as `((lin1 + b1) + lin2) + b2`, is the
    pre-activation. -/
theorem v12_eq_pre (r : Fin 10000) (o : Fin 128) :
    val_main_v12 (F := Ideal) x0 x1 x2 x3 x4 x5 (ix2 r o) = pre x0 x1 x2 x3 x4 x5 r o := by
  rw [val_main_v12_apply, val_main_v9_apply, val_main_v6_apply, v3_eq_lin1, v5_eq_b1, v8_eq_lin2, v11_eq_b2]
  exact pre_regroup x0 x1 x2 x3 x4 x5 r o

/-- The reference's last stage, as a function of the six arguments, is `G` of them. -/
theorem ref_eq_G (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v17 (F := Ideal) x0 x1 x2 x3 x4 x5 = G x0 x1 x2 x3 x4 x5 := by
  funext i
  obtain ⟨r, o, rfl⟩ : ∃ (r : Fin 10000) (o : Fin 128), i = ix2 r o := ⟨i 0, i 1, eq_ix2 i⟩
  rw [G_ix2, val_main_v17_apply, val_main_v14_apply, val_main_v16_apply, val_main_v13_apply, val_main_v15_apply,
    val_main_cst_apply, val_main_cst_0_apply, v12_eq_pre]
  rfl

end Cert.ReferenceIdeal.NgcfRef

end
-- ==== Proof.lean ====
/-
  One graph-convolution layer with a neighbour interaction term: for node features `x : [10000,128]`, a dense adjacency
  `adj : [10000,10000]`, weights `W1, W2 : [128,128]` and biases `b1, b2 : [128]`,

      out = LeakyReLU₀.₂( (adj·x)·W1ᵀ + b1 + (x ∘ (adj·x))·W2ᵀ + b2 ).

  The kernel walks the 10000 rows in 25 blocks of 400. At each grid point it multiplies its adjacency row-block by the
  whole of `x` (kept resident, converted to bf16 once on the host), multiplies the result elementwise by its own 400 rows
  of `x`, applies both 128 × 128 transforms — read as two blocks of ONE stacked array `[W1ᵀ; W2ᵀ]` that two windows
  share —, adds the two biases and applies the activation. The reference does the same with four whole-array
  operations. Over the extended reals the changes of float format are the identity and both matrix products are exact
  sums, so the two programs compute the same four summands per element and differ only in the ORDER in which they add
  them; addition of extended reals is commutative and associative, so they agree on every input (Spec.lean,
  `pre_regroup`); the precondition is not used.

  The frames. Neither kernel program's run is generated (two of its windows read one array). It is proved from the
  library's launch for a pipeline whose windows may share arrays (LibFrameShared.lean): the proof data name what each
  window's buffer holds after the body (NgcfData.lean), the body's run is one symbolic execution (NgcfBody.lean), the
  stacked weights' full share is halved between the two windows that read it (NgcfSplit.lean), and the run's post read at
  the arguments is the frame (NgcfRun.lean). The same text at the word-level instance gives the first frame (the K… files).
  The value. At the ideal instance the result array ends holding `G` of the arguments (NgcfFinal.lean, over the payload
  read at an element, NgcfPayload.lean, and the blocks traced back to the arguments, NgcfHost.lean); the reference's run
  ends at its composed term, which is `G` too (RefG.lean). The idealization rewrote nothing, so `preserves` is `True`.
-/
import proofs.«152794_g85229331022396_cont_9to1_m_1172_3_alg».proof.Defs
import proofs.«152794_g85229331022396_cont_9to1_m_1172_3_alg».proof.Proof.Gen.Kernel
import proofs.«152794_g85229331022396_cont_9to1_m_1172_3_alg».proof.Proof.Gen.KernelIdeal
import proofs.«152794_g85229331022396_cont_9to1_m_1172_3_alg».proof.Proof.Gen.ReferenceIdeal
import proofs.«152794_g85229331022396_cont_9to1_m_1172_3_alg».proof.Proof.Gen.Pre_finite_inputs
import proofs.«152794_g85229331022396_cont_9to1_m_1172_3_alg».proof.Proof.Gen.ReferenceIdeal.Run
import proofs.«152794_g85229331022396_cont_9to1_m_1172_3_alg».proof.Proof.Gen.ReferenceIdeal.Read
import proofs.«152794_g85229331022396_cont_9to1_m_1172_3_alg».proof.Proof.KNgcfRun
import proofs.«152794_g85229331022396_cont_9to1_m_1172_3_alg».proof.Proof.NgcfRun
import proofs.«152794_g85229331022396_cont_9to1_m_1172_3_alg».proof.Proof.NgcfFinal
import proofs.«152794_g85229331022396_cont_9to1_m_1172_3_alg».proof.Proof.RefG

noncomputable section

namespace Cert.Proof

open Idealize.ShloMosaic Idealize.SL.Sem

/-- The word-level kernel runs to the end and leaves its arguments unchanged. -/
theorem frame_kernel : Cert.frame_Kernel (hKernel := Cert.Kernel.Gen.facts) (hPre_finite_inputs := Cert.Pre_finite_inputs.Gen.facts) :=
  fun m ρ _ => Cert.Kernel.Ngcf.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Ngcf.frame m ρ

/-- The reference is a straight line of host operations: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both idealized programs end with the result array at `G` of the
    arguments: the kernel's by its run read block by block, the reference's by its composed term. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.NgcfValue.Gm m c, Cert.KernelIdeal.NgcfValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v17_eq, Cert.ReferenceIdeal.NgcfRef.ref_eq_G, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
